-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S256x1024 : Shape := ⟨2, ![256, 1024]⟩
abbrev S256 : Shape := ⟨1, ![256]⟩
abbrev S1x256 : Shape := ⟨2, ![1, 256]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg3 : FVec F S1x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x256 .f32 := Host.absf main_arg3
  let main_cst_6 : FVec F S_ .f32 := constant S_ .f32 0x3F800000#32
  let main_v20 : FVec F S1x256 .f32 := broadcastInDim S1x256 ![] bcast_S_S1x256 main_cst_6
  let main_v21 : IVec S1x256 1 := cmpf .oeq main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S65536x1024 .f32) (main_arg1 : FVec F S256x1024 .f32) (main_arg2 : FVec F S256 .f32) (main_arg3 : FVec F S1x256 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg3 main_v13 main_v16
-- ==== Kernel.lean ====
abbrev S65536x1024 : Shape := ⟨2, ![65536, 1024]⟩
abbrev S256x1024 : Shape := ⟨2, ![256, 1024]⟩
abbrev S256 : Shape := ⟨1, ![256]⟩
abbrev S1x256 : Shape := ⟨2, ![1, 256]⟩
abbrev S65536x256 : Shape := ⟨2, ![65536, 256]⟩
abbrev S4096x1024 : Shape := ⟨2, ![4096, 1024]⟩
abbrev S4096x256 : Shape := ⟨2, ![4096, 256]⟩

abbrev nBuf : Space → Nat
  | .hbm => 7
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S256, .f32⟩
  | .hbm, ⟨3, _⟩ => ⟨S1x256, .f32⟩
  | .hbm, ⟨4, _⟩ => ⟨S1x256, .f32⟩
  | .hbm, ⟨5, _⟩ => ⟨S256x1024, .bf16⟩
  | .hbm, ⟨6, _⟩ => ⟨S65536x256, .f32⟩
  | .local _ .vmem, ⟨0, _⟩ => ⟨S4096x1024, .f32⟩
  | .local _ .vmem, ⟨1, _⟩ => ⟨S4096x1024, .f32⟩
  | .local _ .vmem, ⟨2, _⟩ => ⟨S256x1024, .bf16⟩
  | .local _ .vmem, ⟨3, _⟩ => ⟨S1x256, .f32⟩
  | .local _ .vmem, ⟨4, _⟩ => ⟨S1x256, .f32⟩
  | .local _ .vmem, ⟨5, _⟩ => ⟨S4096x256, .f32⟩
  | .local _ .vmem, ⟨6, _⟩ => ⟨S4096x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  bitsLt_bf16_f32 : FTy.bits .bf16 < FTy.bits .f32
  inb_S4096x1024_S4096x1024_0_0 : ∀ a, (![0, 0] : Fin 2 → Nat) a + S4096x1024.size a ≤ S4096x1024.size a
  h_S4096x1024 : 0 < S4096x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  dot_S4096x1024_S256x1024_S4096x256_1_1_0_0_n_n_wf : DotDims.WF S4096x1024 S256x1024 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S65536x256.size a
  hwx0_4 : ∀ i : grid0.Coords, EltTy.bits .f32 = 32 ∨ (Rect.block (s := S65536x256) S4096x256.size (cc0_transform_4 i) (hinb0_4 i)).WholeWords (EltTy.packing .f32)

variable [Facts₀]

def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf

abbrev win0_0 : Pipeline.Window sig grid0 :=
  Pipeline.Window.ofSpec (Memref.whole main_arg0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S256x1024 : Shape := ⟨2, ![256, 1024]⟩
abbrev S256 : Shape := ⟨1, ![256]⟩
abbrev S1x256 : Shape := ⟨2, ![1, 256]⟩
abbrev S1024x256 : Shape := ⟨2, ![1024, 256]⟩
abbrev S65536x256 : Shape := ⟨2, ![65536, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S256, .f32⟩
  | .hbm, ⟨3, _⟩ => ⟨S1x256, .f32⟩
  | .hbm, ⟨4, _⟩ => ⟨S1024x256, .f32⟩
  | .hbm, ⟨5, _⟩ => ⟨S65536x256, .f32⟩
  | .hbm, ⟨6, _⟩ => ⟨S1x256, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x256, .f32⟩
  | .hbm, ⟨12, _⟩ => ⟨S_, .f32⟩
  | .hbm, ⟨13, _⟩ => ⟨S65536x256, .f32⟩
  | .hbm, ⟨14, _⟩ => ⟨S65536x256, .i1⟩
  | .hbm, ⟨15, _⟩ => ⟨S_, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x1024_S1024x256_S65536x256_1_0_0_1_n_n_wf : DotDims.WF S65536x1024 S1024x256 S65536x256 [1] [0] [0] [1] [] []

variable [Facts₀]

def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.RoundThreshold.lean ====
/-
  Rounding to nearest (ties to even) against a threshold, on the reals and on the extended reals.

  For a real `r`, the nearest integer with ties to even is nonnegative exactly when `-1/2 ≤ r` (the tie
  `-1/2` rounds to the even integer `0`), and nonpositive exactly when `r ≤ 1/2` (the tie `1/2` rounds to
  `0` as well). Multiplying by a factor `s = 1` or `s = -1` keeps or flips the comparison, so for such `s`
  and any extended real `y`,   `0 ≤ round y · s`   iff   `-1/2 ≤ y · s`;
  the infinities are fixed by the rounding and sit on the same side of both thresholds.
-/
import Idealize.ShloMosaic.PureOps.Ideal
import Idealize.ShloMosaic.PureOps.Ideal.Laws

noncomputable section

namespace Cert.RoundThreshold

open Idealize.ShloMosaic

/-- Ties-to-even rounding is nonnegative exactly from `-1/2` upwards. -/
theorem zero_le_roundHalfEven_iff (r : ℝ) : 0 ≤ Ideal.roundHalfEven r ↔ -(1 / 2 : ℝ) ≤ r := by
  have h1 : (⌊r⌋ : ℝ) ≤ r := Int.floor_le r
  have h2 : r < ⌊r⌋ + 1 := Int.lt_floor_add_one r
  dsimp only [Ideal.roundHalfEven]
  split_ifs with ha hb hc
  · constructor
    · intro h
      have : (0 : ℝ) ≤ ⌊r⌋ := by exact_mod_cast h
      linarith
    · intro h
      have h3 : ((-1 : ℤ) : ℝ) < ⌊r⌋ := by push_cast; linarith
      have : (-1 : ℤ) < ⌊r⌋ := by exact_mod_cast h3
      omega
  · constructor
    · intro h
      have : (0 : ℝ) ≤ (⌊r⌋ : ℝ) + 1 := by exact_mod_cast h
      linarith
    · intro h
      have h3 : ((-2 : ℤ) : ℝ) < ⌊r⌋ := by push_cast; linarith
      have : (-2 : ℤ) < ⌊r⌋ := by exact_mod_cast h3
      omega
  · have he : r - ⌊r⌋ = 1 / 2 := le_antisymm (not_lt.mp hb) (not_lt.mp ha)
    constructor
    · intro h
      have : (0 : ℝ) ≤ ⌊r⌋ := by exact_mod_cast h
      linarith
    · intro h
      have h3 : ((-1 : ℤ) : ℝ) ≤ ⌊r⌋ := by push_cast; linarith
      have h4 : (-1 : ℤ) ≤ ⌊r⌋ := by exact_mod_cast h3
      obtain ⟨k, hk⟩ := hc
      omega
  · have he : r - ⌊r⌋ = 1 / 2 := le_antisymm (not_lt.mp hb) (not_lt.mp ha)
    constructor
    · intro h
      have : (0 : ℝ) ≤ (⌊r⌋ : ℝ) + 1 := by exact_mod_cast h
      linarith
    · intro h
      have h3 : ((-1 : ℤ) : ℝ) ≤ ⌊r⌋ := by push_cast; linarith
      have h4 : (-1 : ℤ) ≤ ⌊r⌋ := by exact_mod_cast h3
      omega

/-- Ties-to-even rounding is nonpositive exactly up to `1/2`. -/
theorem roundHalfEven_le_zero_iff (r : ℝ) : Ideal.roundHalfEven r ≤ 0 ↔ r ≤ (1 / 2 : ℝ) := by
  have h1 : (⌊r⌋ : ℝ) ≤ r := Int.floor_le r
  have h2 : r < ⌊r⌋ + 1 := Int.lt_floor_add_one r
  dsimp only [Ideal.roundHalfEven]
  split_ifs with ha hb hc
  · constructor
    · intro h
      have : (⌊r⌋ : ℝ) ≤ 0 := by exact_mod_cast h
      linarith
    · intro h
      have h3 : (⌊r⌋ : ℝ) < ((1 : ℤ) : ℝ) := by push_cast; linarith
      have : ⌊r⌋ < (1 : ℤ) := by exact_mod_cast h3
      omega
  · constructor
    · intro h
      have : (⌊r⌋ : ℝ) + 1 ≤ 0 := by exact_mod_cast h
      linarith
    · intro h
      have h3 : (⌊r⌋ : ℝ) < ((0 : ℤ) : ℝ) := by push_cast; linarith
      have : ⌊r⌋ < (0 : ℤ) := by exact_mod_cast h3
      omega
  · have he : r - ⌊r⌋ = 1 / 2 := le_antisymm (not_lt.mp hb) (not_lt.mp ha)
    constructor
    · intro h
      have : (⌊r⌋ : ℝ) ≤ 0 := by exact_mod_cast h
      linarith
    · intro h
      have h3 : (⌊r⌋ : ℝ) ≤ ((0 : ℤ) : ℝ) := by push_cast; linarith
      exact_mod_cast h3
  · have he : r - ⌊r⌋ = 1 / 2 := le_antisymm (not_lt.mp hb) (not_lt.mp ha)
    constructor
    · intro h
      have : (⌊r⌋ : ℝ) + 1 ≤ 0 := by exact_mod_cast h
      linarith
    · intro h
      have h3 : (⌊r⌋ : ℝ) ≤ ((0 : ℤ) : ℝ) := by push_cast; linarith
      have h4 : ⌊r⌋ ≤ (0 : ℤ) := by exact_mod_cast h3
      have hodd : ¬ Even ⌊r⌋ := hc
      rcases Int.even_or_odd ⌊r⌋ with he' | ⟨k, hk⟩
      · exact absurd he' hodd
      · omega

/-- On the extended reals: the rounded value is nonnegative exactly from `-1/2` upwards. -/
theorem zero_le_liftRound_iff (y : EReal) :
    0 ≤ Ideal.liftRound Ideal.roundHalfEven y ↔ ((-(1 / 2) : ℝ) : EReal) ≤ y := by
  induction y using EReal.rec with
  | bot => simp
  | top => simp
  | coe r =>
    rw [Ideal.liftRound_coe, ← EReal.coe_zero, EReal.coe_le_coe_iff, EReal.coe_le_coe_iff]
    have := zero_le_roundHalfEven_iff r
    constructor
    · intro h
      have h' : 0 ≤ Ideal.roundHalfEven r := by exact_mod_cast h
      have := this.mp h'
      linarith
    · intro h
      have h' : 0 ≤ Ideal.roundHalfEven r := this.mpr (by linarith)
      exact_mod_cast h'

/-- On the extended reals: the NEGATED rounded value is nonnegative exactly when the negated argument is at least `-1/2`. -/
theorem zero_le_neg_liftRound_iff (y : EReal) :
    0 ≤ -(Ideal.liftRound Ideal.roundHalfEven y) ↔ ((-(1 / 2) : ℝ) : EReal) ≤ -y := by
  induction y using EReal.rec with
  | bot => simp
  | top => simp
  | coe r =>
    rw [Ideal.liftRound_coe, ← EReal.coe_neg, ← EReal.coe_neg, ← EReal.coe_zero, EReal.coe_le_coe_iff,
      EReal.coe_le_coe_iff]
    have := roundHalfEven_le_zero_iff r
    constructor
    · intro h
      have h' : ((Ideal.roundHalfEven r : ℤ) : ℝ) ≤ 0 := by linarith
      have := this.mp (by exact_mod_cast h')
      linarith
    · intro h
      have h' : Ideal.roundHalfEven r ≤ 0 := this.mpr (by linarith)
      have : ((Ideal.roundHalfEven r : ℤ) : ℝ) ≤ 0 := by exact_mod_cast h'
      linarith

/-- For a factor `s` that is `1` or `-1`: comparing `round y · s` with `0` is comparing `y · s` with `-1/2`. -/
theorem round_mul_sign_ge (y s : EReal) (hs : s = 1 ∨ s = -1) :
    Ideal.cmp .oge (Ideal.liftRound Ideal.roundHalfEven y * s) 0
      = Ideal.cmp .oge (y * s) ((-(1 / 2) : ℝ) : EReal) := by
  unfold Ideal.cmp
  congr 1
  rcases hs with rfl | rfl
  · simp only [mul_one]
    exact decide_eq_decide.mpr (zero_le_liftRound_iff y)
  · simp only [mul_neg, mul_one]
    exact decide_eq_decide.mpr (zero_le_neg_liftRound_iff y)

/-- An ordered-equal comparison that answers `1` has equal operands. -/
theorem eq_of_cmp_oeq (x y : EReal) (h : Ideal.cmp .oeq x y = 1#1) : x = y := by
  by_contra hne
  simp [Ideal.cmp, hne] at h

/-- An extended real whose absolute value `max s (-s)` is `1` is `1` or `-1`. -/
theorem eq_one_or_neg_one_of_abs (s : EReal) (h : max s (-s) = 1) : s = 1 ∨ s = -1 := by
  rcases max_choice s (-s) with hm | hm
  · left; rw [hm] at h; exact h
  · right; rw [hm] at h; exact neg_eq_iff_eq_neg.mp h

/-! The float words the argument evaluates. -/

/-- The word `0xBF000000` is `-1/2`. -/
theorem ofBits_neg_half : Ideal.ofBits .f32 0xBF000000#32 = ((-(1 / 2) : ℝ) : EReal) := by
  simp [Ideal.ofBits, Ideal.ieee, -EReal.coe_mul]; norm_num

/-- The word `0x3F800000` is `1`. -/
theorem ofBits_one : Ideal.ofBits .f32 0x3F800000#32 = 1 := by
  simp [Ideal.ofBits, Ideal.ieee, -EReal.coe_mul]; norm_num

end Cert.RoundThreshold

end
-- ==== Proof.ThresholdSpec.lean ====
/-
  The two programs as functions of the argument arrays, index by index, on the extended reals.

  With  lin(i, j) = Σ_k x[i, k] · w[j, k] + b[j]  (row i of x against row j of the weight, plus the bias) and the
  factor  s[0, j]:
    the kernel's result at (i, j) is  1 if  -1/2 ≤ lin(i, j) · s[0, j]          else 0;
    the reference's at (i, j) is      1 if   0   ≤ round(lin(i, j)) · s[0, j]   else 0  (round: to nearest, ties to even).
  Where every s[0, j] is 1 or -1 the two agree: rounding is nonnegative exactly from -1/2 upwards and nonpositive exactly
  up to 1/2, and a factor 1 or -1 keeps or flips the comparison.
-/
import proofs.«405812_j34359738368299_3_alg».proof.Proof.RoundThreshold
import Idealize.ShloMosaic.Lib.ValueIdx

noncomputable section

namespace Cert.ThresholdSpec

open Idealize.ShloMosaic Idealize.ShloMosaic.ValueIdx

abbrev SX : Shape := ⟨2, ![65536, 1024]⟩
abbrev SW : Shape := ⟨2, ![256, 1024]⟩
abbrev SB : Shape := ⟨1, ![256]⟩
abbrev SS : Shape := ⟨2, ![1, 256]⟩
abbrev SO : Shape := ⟨2, ![65536, 256]⟩

variable (x : SX.Idx → EReal) (w : SW.Idx → EReal) (b : SB.Idx → EReal) (s : SS.Idx → EReal)

/-- The linear layer before the threshold: row `p 0` of `x` against row `p 1` of `w`, plus the bias at `p 1`. -/
def lin (p : SO.Idx) : EReal :=
  (∑ k : Fin 1024, x (ix2 (p 0) k) * w (ix2 (p 1) k)) + b (ix1 (p 1))

/-- The factor a column is multiplied by before the threshold. -/
def factor (p : SO.Idx) : EReal := s (ix2 (0 : Fin 1) (p 1))

/-- The kernel's result: the threshold `-1/2` on the unrounded product. -/
def kernelOut : SO.Idx → EReal := fun p =>
  Scalar.select (Ideal.cmp .oge (lin x w b p * factor s p) (Ideal.ofBits .f32 0xBF000000#32))
    (Ideal.ofBits .f32 0x3F800000#32) (Ideal.ofBits .f32 0x00000000#32)

/-- The reference's result: the threshold `0` on the rounded value's product. -/
def referenceOut : SO.Idx → EReal := fun p =>
  Scalar.select (Ideal.cmp .oge (Ideal.liftRound Ideal.roundHalfEven (lin x w b p) * factor s p) (Ideal.ofBits .f32 0x00000000#32))
    (Ideal.ofBits .f32 0x3F800000#32) (Ideal.ofBits .f32 0x00000000#32)

/-- Where every factor is `1` or `-1`, the reference's result is the kernel's. -/
theorem referenceOut_eq_kernelOut (hs : ∀ i : SS.Idx, s i = 1 ∨ s i = -1) :
    referenceOut x w b s = kernelOut x w b s := by
  funext p
  unfold referenceOut kernelOut factor
  rw [RoundThreshold.ofBits_neg_half, Ideal.ofBits_zero_f32,
    RoundThreshold.round_mul_sign_ge _ _ (hs (ix2 (0 : Fin 1) (p 1)))]

end Cert.ThresholdSpec

end
-- ==== Proof.KernelPayload.lean ====
/-
  The kernel body's stored value at an index, on the extended reals.

  The body multiplies its block of `x` (4096 rows of 1024) with the whole weight (256 rows of 1024), contracting the
  1024-axis of both into a zero accumulator: entry (p, q) is  Σ_k x0[p, k] · x1[q, k].  It adds the bias row, multiplies
  by the factor row (both broadcast along the 4096 rows), compares with the word `-1/2` and selects `1.0` or `0.0`.
-/
import proofs.«405812_j34359738368299_3_alg».proof.Proof.Gen.KernelIdeal.Skeleton
import Idealize.ShloMosaic.Lib.Pipeline.Value
import Idealize.ShloMosaic.Lib.ValueIdx
import Idealize.ShloMosaic.PureOps.Ideal.Laws
import proofs.«405812_j34359738368299_3_alg».proof.Proof.ThresholdSpec

noncomputable section

namespace Cert.KernelIdeal.Payload

open Cert.KernelIdeal Cert.KernelIdeal.Gen Idealize.ShloMosaic Idealize.ShloMosaic.TcCoe Idealize.ShloMosaic.ValueIdx

/-! The two operands' indices under the contraction: the left operand keeps the result's row and takes the contracted
    coordinate on its axis 1; the right operand keeps the result's column on its axis 0 and takes the contracted
    coordinate on its axis 1. -/

theorem lhs_axis0 (i : S4096x256.Idx) (q : dot_S4096x1024_S256x1024_S4096x256_1_1_0_0_n_n.contr.Idx) :
    (dot_S4096x1024_S256x1024_S4096x256_1_1_0_0_n_n.lhsIdx i q 0).val = (i 0).val := by
  unfold DotDims.lhsIdx
  rw [dif_neg (show ¬(0 : Fin S4096x1024.rank) ∈ dot_S4096x1024_S256x1024_S4096x256_1_1_0_0_n_n.lhsBatch by decide), dif_pos (show (0 : Fin S4096x1024.rank) ∈ dot_S4096x1024_S256x1024_S4096x256_1_1_0_0_n_n.lhsNonContracting by decide)]
  rfl
theorem lhs_axis1 (i : S4096x256.Idx) (q : dot_S4096x1024_S256x1024_S4096x256_1_1_0_0_n_n.contr.Idx) :
    (dot_S4096x1024_S256x1024_S4096x256_1_1_0_0_n_n.lhsIdx i q 1).val = (q ⟨0, by decide⟩).val :=
  dot_S4096x1024_S256x1024_S4096x256_1_1_0_0_n_n.lhsIdx_val_of_single rfl i q
theorem rhs_axis0 (i : S4096x256.Idx) (q : dot_S4096x1024_S256x1024_S4096x256_1_1_0_0_n_n.contr.Idx) :
    (dot_S4096x1024_S256x1024_S4096x256_1_1_0_0_n_n.rhsIdx i q 0).val = (i 1).val := by
  unfold DotDims.rhsIdx
  rw [dif_neg (show ¬(0 : Fin S256x1024.rank) ∈ dot_S4096x1024_S256x1024_S4096x256_1_1_0_0_n_n.rhsBatch by decide), dif_pos (show (0 : Fin S256x1024.rank) ∈ dot_S4096x1024_S256x1024_S4096x256_1_1_0_0_n_n.rhsNonContracting by decide)]
  rfl
theorem rhs_axis1 (i : S4096x256.Idx) (q : dot_S4096x1024_S256x1024_S4096x256_1_1_0_0_n_n.contr.Idx) :
    (dot_S4096x1024_S256x1024_S4096x256_1_1_0_0_n_n.rhsIdx i q 1).val = (q ⟨0, by decide⟩).val :=
  dot_S4096x1024_S256x1024_S4096x256_1_1_0_0_n_n.rhsIdx_val_of_single rfl i q

/-- The product into the zero accumulator, at (p, q): row `p` of the left operand against row `q` of the right. -/
theorem matmul_at (x0 : FVec Ideal S4096x1024 .f32) (x1 : FVec Ideal S256x1024 .bf16) (p : Fin 4096) (q : Fin 256) :
    matmul dot_S4096x1024_S256x1024_S4096x256_1_1_0_0_n_n none x0 x1 (constant (F := Ideal) S4096x256 .f32 0x00000000#32) (ix2 p q)
      = ∑ k : Fin 1024, x0 (ix2 p k) * x1 (ix2 q k) := by
  refine (Ideal.matmul_constant_zero_apply dot_S4096x1024_S256x1024_S4096x256_1_1_0_0_n_n none x0 x1 (ix2 p q)).trans ?_
  rw [← Equiv.sum_comp (contrEquiv1 dot_S4096x1024_S256x1024_S4096x256_1_1_0_0_n_n 1024 rfl rfl).symm]
  refine Finset.sum_congr rfl fun k _ => ?_
  have hk := contrEquiv1_symm_val dot_S4096x1024_S256x1024_S4096x256_1_1_0_0_n_n 1024 rfl rfl k
  have el : dot_S4096x1024_S256x1024_S4096x256_1_1_0_0_n_n.lhsIdx (ix2 p q) ((contrEquiv1 dot_S4096x1024_S256x1024_S4096x256_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S4096x1024_S256x1024_S4096x256_1_1_0_0_n_n.rhsIdx (ix2 p q) ((contrEquiv1 dot_S4096x1024_S256x1024_S4096x256_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- A row `[1, 256]` broadcast along 4096 rows reads, at (p, q), the row's entry at column `q`. -/
theorem row_broadcast_at (r : FVec Ideal S1x256 .f32) (p : Fin 4096) (q : Fin 256) :
    broadcastTo S4096x256 r broadcasts_S1x256_S4096x256 (ix2 p q) = r (ix2 (0 : Fin 1) q) :=
  broadcastTo_apply r broadcasts_S1x256_S4096x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The stored value at (p, q). -/
theorem pay_at (x0 : Vec Ideal S4096x1024 .f32) (x1 : Vec Ideal S256x1024 .bf16) (x2 x3 : Vec Ideal S1x256 .f32)
    (p : Fin 4096) (q : Fin 256) :
    k0_pay1 x0 x1 x2 x3 (ix2 p q)
      = Scalar.select (Ideal.cmp .oge
          (((∑ k : Fin 1024, x0 (ix2 p k) * x1 (ix2 q k)) + x2 (ix2 (0 : Fin 1) q)) * x3 (ix2 (0 : Fin 1) q))
          (Ideal.ofBits .f32 0xBF000000#32))
        (Ideal.ofBits .f32 0x3F800000#32) (Ideal.ofBits .f32 0x00000000#32) := by
  unfold k0_pay1
  simp only [select_apply, cmpf_apply, broadcast_apply]
  rw [shapeCast_self, shapeCast_self]
  show Scalar.select (Ideal.cmp .oge
      ((matmul dot_S4096x1024_S256x1024_S4096x256_1_1_0_0_n_n none x0 x1 (constant (F := Ideal) S4096x256 .f32 0x00000000#32) (ix2 p q)
        + broadcastTo S4096x256 x2 broadcasts_S1x256_S4096x256 (ix2 p q)) * broadcastTo S4096x256 x3 broadcasts_S1x256_S4096x256 (ix2 p q))
      (Ideal.ofBits .f32 0xBF000000#32)) (Ideal.ofBits .f32 0x3F800000#32) (Ideal.ofBits .f32 0x00000000#32) = _
  rw [matmul_at, row_broadcast_at, row_broadcast_at]

/-- The stored value at (p, q) is `kernelOut` of whole arrays at (row, q), whenever the body's blocks read those arrays
    there: the `x` block's row `p` is the array's row `row`, the weight block is the weight, the bias row's column `q` is
    the bias at `q`, and the factor row is the factor array. -/
theorem pay_eq_kernelOut (X : FVec Ideal S65536x1024 .f32) (W : FVec Ideal S256x1024 .f32) (B : FVec Ideal S256 .f32)
    (S : FVec Ideal S1x256 .f32)
    (x0 : Vec Ideal S4096x1024 .f32) (x1 : Vec Ideal S256x1024 .bf16) (x2 x3 : Vec Ideal S1x256 .f32)
    (p : Fin 4096) (q : Fin 256) (row : Fin 65536)
    (hx : ∀ k : Fin 1024, x0 (ix2 p k) = X (ix2 row k)) (hw : ∀ k : Fin 1024, x1 (ix2 q k) = W (ix2 q k))
    (hb : x2 (ix2 (0 : Fin 1) q) = B (ix1 q)) (hs : x3 (ix2 (0 : Fin 1) q) = S (ix2 (0 : Fin 1) q)) :
    k0_pay1 x0 x1 x2 x3 (ix2 p q) = Cert.ThresholdSpec.kernelOut X W B S (ix2 row q) := by
  rw [pay_at]
  simp only [hx, hw, hb, hs]
  rfl

end Cert.KernelIdeal.Payload

end
-- ==== Proof.KernelArray.lean ====
/-
  The kernel's result array after the run is `kernelOut` of the argument arrays.

  Grid point `t` works on rows  4096·t … 4096·t + 4095  of `x` and of the result (all 1024, respectively 256, columns);
  the weight (converted to bf16 on the host, which changes nothing on the extended reals), the bias (reshaped on the
  host from [256] to [1, 256]) and the factor row are fetched whole at every point. So what point `t` writes back is
  block `t` of `kernelOut`; the 16 blocks tile the 65536 rows, hence the whole array is `kernelOut`.
-/
import proofs.«405812_j34359738368299_3_alg».proof.Proof.Gen.KernelIdeal.Value
import proofs.«405812_j34359738368299_3_alg».proof.Proof.KernelPayload
import proofs.«405812_j34359738368299_3_alg».proof.Proof.ThresholdSpec
import Idealize.ShloMosaic.Lib.Pipeline.Value
import Idealize.ShloMosaic.Lib.ValueIdx
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host wrote before the region -/

/-- The weight window's array is the weight argument: the conversion to bf16 is the identity on the extended reals. -/
theorem weight_array (c : Dev nD) :
    (V m c main_v1 : S256x1024.Idx → EReal) = (m ((c : Thread nD τ).loc main_arg1)) := by
  dsimp only [V, hostOps0]
  after_results
  rfl

/-- The bias window's array is the bias argument reshaped from [256] to [1, 256]. -/
theorem bias_array (c : Dev nD) :
    (V m c main_v0 : S1x256.Idx → EReal) = shapeCast S1x256 (m ((c : Thread nD τ).loc main_arg2)) shapeCasts_S256_S1x256 := by
  dsimp only [V, hostOps0]
  after_results
  rfl

/-- Its entry at (0, q) is the bias at q. -/
theorem bias_array_at (c : Dev nD) (q : Fin 256) :
    (V m c main_v0 : S1x256.Idx → EReal) (ix2 (0 : Fin 1) q) = (m ((c : Thread nD τ).loc main_arg2)) (ix1 q) := by
  rw [bias_array]
  refine shapeCast_apply _ shapeCasts_S256_S1x256 (ix2 (0 : Fin 1) q) (ix1 q) ?_
  rw [Shape.rowMajor_val_one, Shape.rowMajor_val_two]
  show q.val = 0 * 256 + q.val
  omega

/-! ## The printed index maps, decided over the 16 grid points -/

theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every one of the 16 row blocks is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-! ## What a point writes back -/

/-- Point `t` writes back block `t` of `kernelOut` of the argument arrays. -/
theorem flushed_eq (c : Dev nD) (t : Fin cfg0.N) :
    (dats m 0 c).flushed 4 t = ((cfg0.win 4).blk t).view.read (Elt Ideal)
      (Cert.ThresholdSpec.kernelOut (m ((c : Thread nD τ).loc main_arg0)) (m ((c : Thread nD τ).loc main_arg1)) (m ((c : Thread nD τ).loc main_arg2)) (m ((c : Thread nD τ).loc main_arg3))) := by
  rw [Cert.KernelIdeal.Value.flushed4]
  unfold out0_4
  rw [View.canon_unit_zero hz]
  simp only [View.ld_unit_zero (S := S4096x1024) hz, View.ld_unit_zero (S := S256x1024) hz, View.ld_unit_zero (S := S1x256) hz]
  obtain ⟨e0, e1, e2, e3, e4, e5, e6, e7, e8, e9⟩ := idx_facts t
  funext j
  obtain ⟨p, q, rfl⟩ : ∃ (p : Fin 4096) (q : Fin 256), j = ix2 p q := ⟨j 0, j 1, eq_ix2 j⟩
  have hp : p.val < 4096 := p.isLt
  have hq : q.val < 256 := q.isLt
  have hx : ∀ k : Fin 1024, iblk m c 0 t (ix2 p k)
      = (m ((c : Thread nD τ).loc main_arg0)) (ix2 (⟨win0_4.index t (0 : Fin 2) * 4096 + p.val, by omega⟩ : Fin 65536) k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 4096 + 1 * p.val = win0_4.index t (0 : Fin 2) * 4096 + p.val; omega
    | ⟨1, _⟩ => show win0_0.index t (1 : Fin 2) * 1024 + 1 * k.val = k.val; have := k.isLt; omega
  have hw : ∀ k : Fin 1024, iblk m c 1 t (ix2 q k) = (m ((c : Thread nD τ).loc main_arg1)) (ix2 q k) := fun k => by
    show (V m c main_v1 : S256x1024.Idx → EReal) (((cfg0.win 1).blk t).view.emb (ix2 q k)) = _
    rw [weight_array]
    refine congrArg _ (funext fun a => Fin.ext ?_)
    match a with
    | ⟨0, _⟩ => show win0_1.index t (0 : Fin 2) * 256 + 1 * q.val = q.val; omega
    | ⟨1, _⟩ => show win0_1.index t (1 : Fin 2) * 1024 + 1 * k.val = k.val; have := k.isLt; omega
  have hb : iblk m c 2 t (ix2 (0 : Fin 1) q) = (m ((c : Thread nD τ).loc main_arg2)) (ix1 q) := by
    show (V m c main_v0 : S1x256.Idx → EReal) (((cfg0.win 2).blk t).view.emb (ix2 (0 : Fin 1) q)) = _
    rw [← bias_array_at m c q]
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  have hs : iblk m c 3 t (ix2 (0 : Fin 1) q) = (m ((c : Thread nD τ).loc main_arg3)) (ix2 (0 : Fin 1) q) := by
    show V m c main_arg3 (((cfg0.win 3).blk t).view.emb (ix2 (0 : Fin 1) q)) = _
    rw [V_main_arg3]
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  have h4 : ((cfg0.win 4).blk t).view.emb (ix2 p q)
      = ix2 (⟨win0_4.index t (0 : Fin 2) * 4096 + p.val, by omega⟩ : Fin 65536) q := by
    refine funext fun a => Fin.ext ?_
    match a with
    | ⟨0, _⟩ => show win0_4.index t (0 : Fin 2) * 4096 + 1 * p.val = win0_4.index t (0 : Fin 2) * 4096 + p.val; omega
    | ⟨1, _⟩ => show win0_4.index t (1 : Fin 2) * 256 + 1 * q.val = q.val; omega
  show k0_pay1 (iblk m c 0 t) (iblk m c 1 t) (iblk m c 2 t) (iblk m c 3 t) (ix2 p q)
    = Cert.ThresholdSpec.kernelOut (m ((c : Thread nD τ).loc main_arg0)) (m ((c : Thread nD τ).loc main_arg1)) (m ((c : Thread nD τ).loc main_arg2)) (m ((c : Thread nD τ).loc main_arg3)) (((cfg0.win 4).blk t).view.emb (ix2 p q))
  rw [h4]
  exact Payload.pay_eq_kernelOut (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) (iblk m c 3 t)
    p q ⟨win0_4.index t (0 : Fin 2) * 4096 + p.val, by omega⟩ hx hw hb hs

/-! ## The blocks tile the array -/

/-- An index is in point `t`'s block iff each coordinate is in the block's range on its axis. -/
theorem mem_blk (t : Fin cfg0.N) (i : S65536x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v2).slice (win0_4.rect t)).set ↔ _
  rw [View.set_slice_whole, Rect.mem_set_unit]
  exact Iff.rfl

/-- Every index of the result is in the block of the point that owns its row: row `r` belongs to point `r / 4096`. -/
theorem cover (i : S65536x256.Idx) :
    ∃ t : Fin cfg0.N, (cfg0.win 4).flush t = true ∧ i ∈ ((cfg0.win 4).blk t).view.set := by
  have hi0 : (i 0).val < 65536 := (i 0).isLt
  have hi1 : (i 1).val < 256 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-! ## The whole array, and the run -/

/-- After the run the result array is `kernelOut` of the argument arrays. -/
theorem final (c : Dev nD) :
    (dats m 0 c).arrAt 4 cfg0.N = Cert.ThresholdSpec.kernelOut (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- Every weakly fair execution of the kernel terminates with the result array at `kernelOut` of the argument arrays and
    the arguments unchanged. -/
theorem run : θ_run defs (onTc (τ := τ) (main (F := Ideal))) ⟨m, fun _ => 0, ρ⟩ fun r => ∀ c : Dev nD,
      r.2.mem ((c : Thread nD τ).loc main_v2) = Cert.ThresholdSpec.kernelOut (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  The reference's result array, index by index, is `referenceOut` of its arguments.

  Reading the host operations one at a time: the transposed weight at (k, j) is the weight at (j, k), so the
  `dot_general`'s entry (i, j) is  Σ_k x[i, k] · w[j, k];  the bias, broadcast twice, is read at column j; the sum is
  rounded to nearest (ties to even), multiplied by the factor row read at column j, compared with `0`, and the
  comparison selects between the broadcast words `1.0` and `0.0`.
-/
import proofs.«405812_j34359738368299_3_alg».proof.Proof.Gen.ReferenceIdeal.Read
import proofs.«405812_j34359738368299_3_alg».proof.Proof.ThresholdSpec

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-- The last stage of the reference's run is `referenceOut` of the argument arrays. -/
theorem val_eq_referenceOut (x0 : FVec Ideal S65536x1024 .f32) (x1 : FVec Ideal S256x1024 .f32) (x2 : FVec Ideal S256 .f32)
    (x3 : FVec Ideal S1x256 .f32) :
    val_main_v10 (F := Ideal) x0 x1 x2 x3 = Cert.ThresholdSpec.referenceOut x0 x1 x2 x3 := by
  funext i
  have e1 : ∀ k : Fin 1024, lidx_main_v1 i k = ix2 (i 0) k := fun k => funext fun a => Fin.ext (by
    match a with | ⟨0, _⟩ => rfl | ⟨1, _⟩ => rfl)
  have e2 : ∀ k : Fin 1024, idx_main_v0 (ridx_main_v1 i k) = ix2 (i 1) k := fun k => funext fun a => Fin.ext (by
    match a with | ⟨0, _⟩ => rfl | ⟨1, _⟩ => rfl)
  have e3 : idx_main_v2 (idx_main_v3 i) = ix1 (i 1) := funext fun a => Fin.ext (by
    match a with | ⟨0, _⟩ => rfl)
  have e4 : idx_main_v6 i = ix2 (0 : Fin 1) (i 1) := funext fun a => Fin.ext (by
    match a with | ⟨0, _⟩ => rfl | ⟨1, _⟩ => rfl)
  rw [val_main_v10_apply, val_main_v9_apply, val_main_v7_apply, val_main_v5_apply, val_main_v4_apply, val_main_v1_apply,
    val_main_v3_apply, val_main_v2_apply, val_main_v6_apply, val_main_v8_apply, val_main_cst_apply,
    val_main_call1_v0_apply, val_main_call1_v1_apply, val_main_cst_0_apply, val_main_cst_1_apply]
  simp only [val_main_v0_apply, e1, e2, e3, e4]
  rfl

end Cert.ReferenceIdeal.RefValue

end
-- ==== Proof.SignDomain.lean ====
/-
  What the precondition says about the factor array: besides finiteness it states that the absolute value of every
  entry of the last argument is `1`, so every entry is `1` or `-1`.
-/
import proofs.«405812_j34359738368299_3_alg».proof.Pre_finite_inputs
import proofs.«405812_j34359738368299_3_alg».proof.Proof.RoundThreshold
import Idealize.ShloMosaic.Lib.ReduceAll
import Idealize.ShloMosaic.Lib.Pipeline.Value
import Idealize.ShloMosaic.Lib.ValueIdx
import Idealize.ShloMosaic.PureOps.Ideal.Laws

noncomputable section

namespace Cert.SignDomain

open Idealize.ShloMosaic Idealize.ShloMosaic.TcCoe Idealize.ShloMosaic.StableHlo Cert.Pre_finite_inputs Cert.Pre_finite_inputs.Facts

instance : Subsingleton S_.Idx := ⟨fun _ _ => funext fun d => d.elim0⟩

/-- Under the precondition every entry of the factor array is `1` or `-1`: the last conjunct is the `and` over all
    entries of `|s| = 1`, and on the extended reals `|s| = max s (-s)`. -/
theorem sign_of_pre [Facts] (a0 : FVec Ideal S65536x1024 .f32) (a1 : FVec Ideal S256x1024 .f32) (a2 : FVec Ideal S256 .f32)
    (a3 : FVec Ideal S1x256 .f32) (h : fn (F := Ideal) a0 a1 a2 a3 = (fun _ => 1#1)) (i : S1x256.Idx) :
    a3 i = 1 ∨ a3 i = -1 := by
  have h0 := congrFun h ValueIdx.ix0
  dsimp only [fn, fn_part1] at h0
  obtain ⟨_, h22⟩ := IntOp.andi_eq_one.1 h0
  have hi := Host.reduce_andi_all _ _ _ _ _ h22 i
  have hb : broadcastInDim S1x256 ![] bcast_S_S1x256 (constant (F := Ideal) S_ .f32 0x3F800000#32) i
      = Ideal.ofBits .f32 0x3F800000#32 :=
    broadcastInDim_apply _ bcast_S_S1x256 _ i (fun a => a.elim0) (fun a => a.elim0)
  rw [ValueIdx.cmpf_apply, hb] at hi
  have he := RoundThreshold.eq_of_cmp_oeq _ _ hi
  rw [RoundThreshold.ofBits_one] at he
  exact RoundThreshold.eq_one_or_neg_one_of_abs _ he

end Cert.SignDomain

end
-- ==== Proof.lean ====
/-
  A linear layer thresholded by a ±1 factor, two ways.

  With  lin(i, j) = Σ_k x[i, k] · weight[j, k] + bias[j]  and the factor  sign[0, j]:
    the kernel computes     1 if  -1/2 ≤ lin(i, j) · sign[0, j]          else 0,
    the reference computes  1 if   0   ≤ round(lin(i, j)) · sign[0, j]   else 0   (round: to nearest, ties to even).
  The precondition states, besides finiteness, that every entry of `sign` has absolute value 1, that is, is 1 or -1.
  For such a factor the two agree at every extended real lin(i, j): rounding is nonnegative exactly from -1/2 upwards
  (the tie -1/2 goes to the even integer 0) and nonpositive exactly up to 1/2 (the tie 1/2 goes to 0 too), a factor 1
  keeps the comparison and a factor -1 flips it, and the infinities are fixed by the rounding. Finiteness is not used.

  The kernel's result array is that function of the argument arrays because grid point t computes rows
  4096·t … 4096·t + 4095 from the same rows of x and the whole weight, bias and factor, and the 16 row blocks tile the
  array; its matrix product into a zero accumulator and the reference's product with the transposed weight are the same
  sum over k, and the weight's conversion to bf16 is the identity on the extended reals.
-/
import proofs.«405812_j34359738368299_3_alg».proof.Defs
import proofs.«405812_j34359738368299_3_alg».proof.Proof.Gen.Kernel
import proofs.«405812_j34359738368299_3_alg».proof.Proof.Gen.Kernel.Skeleton
import proofs.«405812_j34359738368299_3_alg».proof.Proof.Gen.Kernel.Launch
import proofs.«405812_j34359738368299_3_alg».proof.Proof.Gen.Kernel.Points
import proofs.«405812_j34359738368299_3_alg».proof.Proof.Gen.Kernel.Frame
import proofs.«405812_j34359738368299_3_alg».proof.Proof.Gen.KernelIdeal
import proofs.«405812_j34359738368299_3_alg».proof.Proof.Gen.KernelIdeal.Skeleton
import proofs.«405812_j34359738368299_3_alg».proof.Proof.Gen.KernelIdeal.Launch
import proofs.«405812_j34359738368299_3_alg».proof.Proof.Gen.KernelIdeal.Points
import proofs.«405812_j34359738368299_3_alg».proof.Proof.Gen.KernelIdeal.Frame
import proofs.«405812_j34359738368299_3_alg».proof.Proof.Gen.ReferenceIdeal
import proofs.«405812_j34359738368299_3_alg».proof.Proof.Gen.Pre_finite_inputs
import proofs.«405812_j34359738368299_3_alg».proof.Proof.Gen.KernelIdeal.Value
import proofs.«405812_j34359738368299_3_alg».proof.Proof.Gen.ReferenceIdeal.Run
import proofs.«405812_j34359738368299_3_alg».proof.Proof.Gen.ReferenceIdeal.Read
import proofs.«405812_j34359738368299_3_alg».proof.Proof.KernelArray
import proofs.«405812_j34359738368299_3_alg».proof.Proof.ReferenceValue
import proofs.«405812_j34359738368299_3_alg».proof.Proof.SignDomain
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories agreeing on the arguments, with every factor 1 or -1, both programs end with the same result array:
    the kernel's is `kernelOut`, the reference's `referenceOut`, and the two are one function for such factors. -/
theorem algebraic : Cert.algebraic_KernelIdeal_ReferenceIdeal := by
  intro m ρ m' ρ' hpre hagree
  refine ⟨fun c => Cert.ThresholdSpec.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.val_eq_referenceOut,
    (hagree c).1, (hagree c).2.1, (hagree c).2.2.1, (hagree c).2.2.2]
  exact Cert.ThresholdSpec.referenceOut_eq_kernelOut _ _ _ _ (fun i => Cert.SignDomain.sign_of_pre _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
